-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x64x32 : Shape := ⟨3, ![4096, 64, 32]⟩
abbrev S4096x64x1 : Shape := ⟨3, ![4096, 64, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x64x1 : S_.BroadcastsInDim S4096x64x1 (![] : Fin 0 → Fin S4096x64x1.rank)
  reducesTo_S4096x64x1_S_d0_1_2 : S4096x64x1.ReducesTo [0, 1, 2] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S4096x64x32 32) (main_arg2 : FVec F S4096x64x1 .f32) (main_arg3 : FVec F S4096x64x1 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x64x1 .f32 := Host.absf main_arg2
  let main_cst_0 : FVec F S_ .f32 := constant S_ .f32 0x7F800000#32
  let main_v5 : FVec F S4096x64x1 .f32 := broadcastInDim S4096x64x1 ![] bcast_S_S4096x64x1 main_cst_0
  let main_v6 : IVec S4096x64x1 1 := cmpf .olt main_v4 main_v5
  let main_c_1 : IVec S_ 1 := constantI S_ 1 1#1
  let main_v7 : IVec S_ 1 := (fun x v => Host.reduce IntOp.andi x v reducesTo_S4096x64x1_S_d0_1_2 h_S_) main_v6 main_c_1
  let main_v8 : IVec S_ 1 := andi main_v3 main_v7
  let main_v9 : FVec F S4096x64x1 .f32 := Host.absf main_arg3
  let main_cst_2 : FVec F S_ .f32 := constant S_ .f32 0x7F800000#32
  let main_v10 : FVec F S4096x64x1 .f32 := broadcastInDim S4096x64x1 ![] bcast_S_S4096x64x1 main_cst_2
  let main_v11 : IVec S4096x64x1 1 := cmpf .olt main_v9 main_v10
  let main_c_3 : IVec S_ 1 := constantI S_ 1 1#1
  let main_v12 : IVec S_ 1 := (fun x v => Host.reduce IntOp.andi x v reducesTo_S4096x64x1_S_d0_1_2 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x64x32 : Shape := ⟨3, ![4096, 64, 32]⟩
abbrev S4096x64x1 : Shape := ⟨3, ![4096, 64, 1]⟩
abbrev S4096 : Shape := ⟨1, ![4096]⟩
abbrev S4096x64x64 : Shape := ⟨3, ![4096, 64, 64]⟩
abbrev S64x64x32 : Shape := ⟨3, ![64, 64, 32]⟩
abbrev S64x64x1 : Shape := ⟨3, ![64, 64, 1]⟩
abbrev S64x64x64 : Shape := ⟨3, ![64, 64, 64]⟩
abbrev S4096x4096 : Shape := ⟨2, ![4096, 4096]⟩
abbrev S8192x4096 : Shape := ⟨2, ![8192, 4096]⟩
abbrev S128x4096 : Shape := ⟨2, ![128, 4096]⟩
abbrev S1x4096 : Shape := ⟨2, ![1, 4096]⟩

abbrev nBuf : Space → Nat
  | .hbm => 10
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x64x32, .i32⟩
  | .hbm, ⟨2, _⟩ => ⟨S4096x64x1, .f32⟩
  | .hbm, ⟨3, _⟩ => ⟨S4096x64x1, .f32⟩
  | .hbm, ⟨4, _⟩ => ⟨S4096, .f32⟩
  | .hbm, ⟨5, _⟩ => ⟨S4096x64x64, .bf16⟩
  | .hbm, ⟨6, _⟩ => ⟨S4096x4096, .bf16⟩
  | .hbm, ⟨7, _⟩ => ⟨S8192x4096, .f32⟩
  | .hbm, ⟨8, _⟩ => ⟨S8192x4096, .f32⟩
  | .hbm, ⟨9, _⟩ => ⟨S4x2048x4096, .f32⟩
  | .local _ .vmem, ⟨0, _⟩ => ⟨S64x64x32, .i32⟩
  | .local _ .vmem, ⟨1, _⟩ => ⟨S64x64x32, .i32⟩
  | .local _ .vmem, ⟨2, _⟩ => ⟨S64x64x1, .f32⟩
  | .local _ .vmem, ⟨3, _⟩ => ⟨S64x64x1, .f32⟩
  | .local _ .vmem, ⟨4, _⟩ => ⟨S64x64x1, .f32⟩
  | .local _ .vmem, ⟨5, _⟩ => ⟨S64x64x1, .f32⟩
  | .local _ .vmem, ⟨6, _⟩ => ⟨S64x64x64, .bf16⟩
  | .local _ .vmem, ⟨7, _⟩ => ⟨S64x64x64, .bf16⟩
  | .local _ .vmem, ⟨8, _⟩ => ⟨S128x4096, .f32⟩
  | .local _ .vmem, ⟨9, _⟩ => ⟨S128x4096, .f32⟩
  | .local _ .vmem, ⟨10, _⟩ => ⟨S4096x4096, .bf16⟩
  | .local _ .vmem, ⟨11, _⟩ => ⟨S4096, .f32⟩
  | .local _ .vmem, ⟨12, _⟩ => ⟨S128x4096, .f32⟩
  | .local _ .vmem, ⟨13, _⟩ => ⟨S128x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x64x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S64x64x32_S64x64x32_0_0_0 : ∀ a, (![0, 0, 0] : Fin 3 → Nat) a + S64x64x32.size a ≤ S64x64x32.size a
  h_S64x64x32 : 0 < S64x64x32.numel
  concatenates_S64x64x32_S64x64x32_S64x64x64_d2 : Shape.Concatenates [S64x64x32, S64x64x32] S64x64x64 2
  inb_S64x64x1_S64x64x1_0_0_0 : ∀ a, (![0, 0, 0] : Fin 3 → Nat) a + S64x64x1.size a ≤ S64x64x1.size a
  h_S64x64x1 : 0 < S64x64x1.numel
  broadcasts_S64x64x1_S64x64x64 : S64x64x1.Broadcasts S64x64x64
  bitsLt_bf16_f32 : FTy.bits .bf16 < FTy.bits .f32
  inb_S64x64x64_S64x64x64_0_0_0 : ∀ a, (![0, 0, 0] : Fin 3 → Nat) a + S64x64x64.size a ≤ S64x64x64.size a
  h_S64x64x64 : 0 < S64x64x64.numel
  packedbf16_S64x64x64_S64x64x64_0_0_0 : (Rect.unit (s := S64x64x64) ![0, 0, 0] S64x64x64.size inb_S64x64x64_S64x64x64_0_0_0).PackedRows (EltTy.packing .bf16)
  shapeCasts_S4096x64x64_S4096x4096 : S4096x64x64.ShapeCasts S4096x4096
  shapeCasts_S4x2048x4096_S8192x4096 : S4x2048x4096.ShapeCasts S8192x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S128x4096 : S1x4096.Broadcasts S128x4096
  shapeCasts_S8192x4096_S4x2048x4096 : S8192x4096.ShapeCasts S4x2048x4096
  dot_S128x4096_S4096x4096_S128x4096_1_1_0_0_n_n_wf : DotDims.WF S128x4096 S4096x4096 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x32.size a ≤ S4096x64x32.size a
  hwx0_0 : ∀ i : grid0.Coords, EltTy.bits .i32 = 32 ∨ (Rect.block (s := S4096x64x32) S64x64x32.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x1.size a ≤ S4096x64x1.size a
  hwx0_1 : ∀ i : grid0.Coords, EltTy.bits .f32 = 32 ∨ (Rect.block (s := S4096x64x1) S64x64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x64x1.size a ≤ S4096x64x1.size a
  hwx0_2 : ∀ i : grid0.Coords, EltTy.bits .f32 = 32 ∨ (Rect.block (s := S4096x64x1) S64x64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x64x64.size a ≤ S4096x64x64.size a
  hwx0_3 : ∀ i : grid0.Coords, EltTy.bits .bf16 = 32 ∨ (Rect.block (s := S4096x64x64) S64x64x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S8192x4096.size a
  hwx1_0 : ∀ i : grid1.Coords, EltTy.bits .f32 = 32 ∨ (Rect.block (s := S8192x4096) S128x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096.size a ≤ S4096.size a
  hwx1_2 : ∀ i : grid1.Coords, EltTy.bits .f32 = 32 ∨ (Rect.block (s := S4096) S4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S8192x4096.size a
  hwx1_3 : ∀ i : grid1.Coords, EltTy.bits .f32 = 32 ∨ (Rect.block (s := S8192x4096) S128x4096.size (cc1_transform_3 i) (hinb1_3 i)).WholeWords (EltTy.packing .f32)

variable [Facts₀]

def dot_S128x4096_S4096x4096_S128x4096_1_1_0_0_n_n : DotDims S128x4096 S4096x4096 S128x4096 where
  lhsContracting := [1]
  rhsContracting := [1]
  lhsNonContracting := [0]
  rhsNonContracting := [0]
  lhsBatch := []
  rhsBatch := []
  wf := dot_S128x4096_S4096x4096_S128x4096_1_1_0_0_n_n_wf

abbrev win0_0 : Pipeline.Window sig grid0 :=
  Pipeline.Window.ofSpec (Memref.whole main_arg1) S64x64x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S128x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x64x32 : Shape := ⟨3, ![4096, 64, 32]⟩
abbrev S4096x64x1 : Shape := ⟨3, ![4096, 64, 1]⟩
abbrev S4096 : Shape := ⟨1, ![4096]⟩
abbrev S_ : Shape := ⟨0, ![]⟩
abbrev S4096x64x64 : Shape := ⟨3, ![4096, 64, 64]⟩
abbrev S4096x4096 : Shape := ⟨2, ![4096, 4096]⟩
abbrev S1x1x4096 : Shape := ⟨3, ![1, 1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x64x32, .i32⟩
  | .hbm, ⟨2, _⟩ => ⟨S4096x64x1, .f32⟩
  | .hbm, ⟨3, _⟩ => ⟨S4096x64x1, .f32⟩
  | .hbm, ⟨4, _⟩ => ⟨S4096, .f32⟩
  | .hbm, ⟨5, _⟩ => ⟨S_, .i32⟩
  | .hbm, ⟨6, _⟩ => ⟨S4096x64x32, .i32⟩
  | .hbm, ⟨7, _⟩ => ⟨S4096x64x32, .i32⟩
  | .hbm, ⟨8, _⟩ => ⟨S_, .i32⟩
  | .hbm, ⟨9, _⟩ => ⟨S4096x64x32, .i32⟩
  | .hbm, ⟨10, _⟩ => ⟨S4096x64x32, .i32⟩
  | .hbm, ⟨11, _⟩ => ⟨S_, .i32⟩
  | .hbm, ⟨12, _⟩ => ⟨S4096x64x32, .i32⟩
  | .hbm, ⟨13, _⟩ => ⟨S4096x64x32, .i32⟩
  | .hbm, ⟨14, _⟩ => ⟨S4096x64x64, .i32⟩
  | .hbm, ⟨15, _⟩ => ⟨S4096x64x64, .f32⟩
  | .hbm, ⟨16, _⟩ => ⟨S4096x64x64, .f32⟩
  | .hbm, ⟨17, _⟩ => ⟨S4096x64x64, .f32⟩
  | .hbm, ⟨18, _⟩ => ⟨S4096x64x64, .f32⟩
  | .hbm, ⟨19, _⟩ => ⟨S4096x64x64, .f32⟩
  | .hbm, ⟨20, _⟩ => ⟨S4096x4096, .f32⟩
  | .hbm, ⟨21, _⟩ => ⟨S4x2048x4096, .f32⟩
  | .hbm, ⟨22, _⟩ => ⟨S1x1x4096, .f32⟩
  | .hbm, ⟨23, _⟩ => ⟨S4x2048x4096, .f32⟩
  | .hbm, ⟨24, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S4096x64x32 : S_.BroadcastsInDim S4096x64x32 (![] : Fin 0 → Fin S4096x64x32.rank)
  concatenates_S4096x64x32_S4096x64x32_S4096x64x64_d2 : Shape.Concatenates [S4096x64x32, S4096x64x32] S4096x64x64 2
  bcast_S4096x64x1_S4096x64x64_0_1_2 : S4096x64x1.BroadcastsInDim S4096x64x64 (![0, 1, 2] : Fin 3 → Fin S4096x64x64.rank)
  shapeCasts_S4096x64x64_S4096x4096 : S4096x64x64.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The mathematics both programs compute, index by index, over the extended reals.

  A weight matrix `w : [4096, 4096]` is stored four bits per entry in groups of 64 along its second axis: group `g` of
  row `n` is 32 bytes `P[n, g, ·]`, the HIGH nibble of byte `j` being entry `j` of the group and the LOW nibble entry
  `32 + j`. An entry's code `q ∈ [0, 16)` is dequantised with the group's two parameters: `q / scale[n, g] + mn[n, g]`.
  The layer is then `out[b, s, n] = Σ_k x[b, s, k] · w[n, k] + bias[n]`, entry `k` of row `n` being entry `k % 64` of
  group `k / 64`.

  Dequantisation acts row by row and the layer acts on each row of `x` by itself, so both are stated for any number
  of rows, with the lemma that a run of rows of the result is the result on that run of rows: what a kernel that
  works through the rows in blocks needs.
-/
import Idealize.ShloMosaic.PureOps.Ideal
import Idealize.ShloMosaic.PureOps.Ideal.Laws
import Idealize.ShloMosaic.Lib.ValueIdx
import Idealize.ShloMosaic.Lib.Pipeline.Value

noncomputable section

namespace Cert.Dequant4

open Idealize.ShloMosaic Idealize.ShloMosaic.ValueIdx

/-! ## Two facts about the low byte of a 32-bit word -/

/-- Bits 4–7 of a word are bits 4–7 of its low byte: masking with `0xFF` first changes nothing of the high nibble,
    whichever unit shifts (a shift by four is in range on both). -/
theorem hi_nibble_of_low_byte (p : BitVec 32) :
    IntOp.andi (IntOp.shrsi .vector (IntOp.andi p 255#32) 4#32) 15#32 = IntOp.andi (IntOp.shrsi .host p 4#32) 15#32 := by
  simp only [IntOp.shrsi, IntOp.andi]
  rw [if_pos (by decide), if_pos (by decide)]
  show ((p &&& 255#32).sshiftRight (4#32).toNat) &&& 15#32 = (p.sshiftRight (4#32).toNat) &&& 15#32
  rw [show (4#32 : BitVec 32).toNat = 4 from rfl, BitVec.sshiftRight_and_distrib, BitVec.and_assoc]
  congr 1

/-- Bits 0–3 of a word are bits 0–3 of its low byte. -/
theorem lo_nibble_of_low_byte (p : BitVec 32) : IntOp.andi (IntOp.andi p 255#32) 15#32 = IntOp.andi p 15#32 := by
  simp only [IntOp.andi]
  rw [BitVec.and_assoc]
  congr 1

/-! ## Two equal halves joined along the last of three axes, read at an index -/

section Halves
variable {α : Type} {A B : Nat}

/-- The index of the first half that position `j` of the joined array reads, when `j` lies in it. -/
abbrev inFirst (j : (⟨3, ![A, B, 64]⟩ : Shape).Idx) (h : (j 2).val < 32) : (⟨3, ![A, B, 32]⟩ : Shape).Idx :=
  ix3 ⟨(j 0).val, (j 0).isLt⟩ ⟨(j 1).val, (j 1).isLt⟩ ⟨(j 2).val, h⟩

/-- The index of the second half that position `j` reads, when `j` lies past the first. -/
abbrev inSecond (j : (⟨3, ![A, B, 64]⟩ : Shape).Idx) (h : ¬ (j 2).val < 32) : (⟨3, ![A, B, 32]⟩ : Shape).Idx :=
  ix3 ⟨(j 0).val, (j 0).isLt⟩ ⟨(j 1).val, (j 1).isLt⟩ ⟨(j 2).val - 32, by have hj : (j 2).val < 64 := (j 2).isLt; show (j 2).val - 32 < 32; omega⟩

/-- Joining `x₁` and `x₂`, both `[A, B, 32]`, along the last axis: positions below 32 read `x₁`, the others `x₂` 32 back. -/
theorem concat_halves_apply (x₁ x₂ : (⟨3, ![A, B, 32]⟩ : Shape).Idx → α)
    (h : Shape.Concatenates [(⟨3, ![A, B, 32]⟩ : Shape), ⟨3, ![A, B, 32]⟩] ⟨3, ![A, B, 64]⟩ 2)
    (j : (⟨3, ![A, B, 64]⟩ : Shape).Idx) :
    concatenate ⟨3, ![A, B, 64]⟩ 2 [⟨⟨3, ![A, B, 32]⟩, x₁⟩, ⟨⟨3, ![A, B, 32]⟩, x₂⟩] h j
      = if hlt : (j 2).val < 32 then x₁ (inFirst j hlt) else x₂ (inSecond j hlt) := by
  by_cases hlt : (j 2).val < 32
  · rw [dif_pos hlt]
    refine concatenate_pair_apply_left 2 x₁ x₂ h j rfl (inFirst j hlt) fun b => ?_
    match b with
    | ⟨0, _⟩ => rfl
    | ⟨1, _⟩ => rfl
    | ⟨2, _⟩ => rfl
  · rw [dif_neg hlt]
    refine concatenate_pair_apply_right 2 x₁ x₂ h j rfl rfl (inSecond j hlt) (fun b hb => ?_) ?_
    · match b with
      | ⟨0, _⟩ => rfl
      | ⟨1, _⟩ => rfl
      | ⟨2, _⟩ => exact absurd rfl hb
    · show (j 2).val - 32 + 32 = (j 2).val
      omega

end Halves

/-! ## Dequantisation, for any number of rows -/

section Dequant
variable {A A' B : Nat}

/-- The group an entry of the grouped weights belongs to. -/
abbrev groupOf (i : (⟨3, ![A, B, 64]⟩ : Shape).Idx) : (⟨3, ![A, B, 1]⟩ : Shape).Idx :=
  ix3 ⟨(i 0).val, (i 0).isLt⟩ ⟨(i 1).val, (i 1).isLt⟩ ⟨0, Nat.one_pos⟩

/-- Entry `i` of the codes: the high nibble of byte `i 2` in the first half of a group, the low nibble of byte
    `i 2 - 32` in the second. -/
def code (P : IVec ⟨3, ![A, B, 32]⟩ 32) (i : (⟨3, ![A, B, 64]⟩ : Shape).Idx) : BitVec 32 :=
  if h : (i 2).val < 32 then IntOp.andi (IntOp.shrsi .host (P (inFirst i h)) 4#32) 15#32
  else IntOp.andi (P (inSecond i h)) 15#32

/-- The dequantised weights, by group: `code / scale + mn`. -/
def dequant (P : IVec ⟨3, ![A, B, 32]⟩ 32) (mn scale : FVec Ideal ⟨3, ![A, B, 1]⟩ .f32) : FVec Ideal ⟨3, ![A, B, 64]⟩ .f32 := fun i =>
  Ideal.div (FloatOps.sitofp (F := Ideal) .f32 (code P i)) (scale (groupOf i)) + mn (groupOf i)

/-- Dequantisation is local: an entry depends on the bytes and parameters of its own row and group only. So if
    `Pb`, `mnb`, `scb` are a run of rows of `P`, `mn`, `scale` — they agree wherever an index `z` of the run and an
    index `z'` of the whole sit in the rows of `y` and `i` with equal remaining coordinates — then entry `y` of the
    run's dequantisation is entry `i` of the whole's. -/
theorem dequant_rows (P : IVec ⟨3, ![A, B, 32]⟩ 32) (mn scale : FVec Ideal ⟨3, ![A, B, 1]⟩ .f32)
    (Pb : IVec ⟨3, ![A', B, 32]⟩ 32) (mnb scb : FVec Ideal ⟨3, ![A', B, 1]⟩ .f32)
    (y : (⟨3, ![A', B, 64]⟩ : Shape).Idx) (i : (⟨3, ![A, B, 64]⟩ : Shape).Idx)
    (h1 : (i 1).val = (y 1).val) (h2 : (i 2).val = (y 2).val)
    (hP : ∀ (z : (⟨3, ![A', B, 32]⟩ : Shape).Idx) (z' : (⟨3, ![A, B, 32]⟩ : Shape).Idx),
      (z 0).val = (y 0).val → (z' 0).val = (i 0).val → (z' 1).val = (z 1).val → (z' 2).val = (z 2).val → Pb z = P z')
    (hmn : mnb (groupOf y) = mn (groupOf i)) (hsc : scb (groupOf y) = scale (groupOf i)) :
    dequant Pb mnb scb y = dequant P mn scale i := by
  unfold dequant
  rw [hmn, hsc]
  have hc : code Pb y = code P i := by
    unfold code
    by_cases h : (y 2).val < 32
    · have h' : (i 2).val < 32 := by omega
      rw [dif_pos h, dif_pos h', hP (inFirst y h) (inFirst i h') rfl rfl h1 h2]
    · have h' : ¬ (i 2).val < 32 := by omega
      rw [dif_neg h, dif_neg h', hP (inSecond y h) (inSecond i h') rfl rfl h1 (by show (i 2).val - 32 = (y 2).val - 32; omega)]
  rw [hc]

end Dequant

/-! ## The layer, on rows -/

section Rows
variable {R R' : Nat}

/-- `out[r, n] = Σ_k X[r, k] · W[n, k] + bias[n]`, for any number `R` of rows of `X`. -/
def linearRows (X : FVec Ideal ⟨2, ![R, 4096]⟩ .f32) (W : FVec Ideal ⟨2, ![4096, 4096]⟩ .f32) (bias : FVec Ideal ⟨1, ![4096]⟩ .f32) :
    FVec Ideal ⟨2, ![R, 4096]⟩ .f32 := fun i =>
  (∑ k : Fin 4096, X (ix2 ⟨(i 0).val, (i 0).isLt⟩ k) * W (ix2 ⟨(i 1).val, (i 1).isLt⟩ k)) + bias (ix1 ⟨(i 1).val, (i 1).isLt⟩)

/-- A row of the result depends on that row of `X` only: if row `y 0` of `Xb` is row `i 0` of `X`, entry `y` of the one
    result is entry `i` of the other, in the same column. -/
theorem linearRows_rows (X : FVec Ideal ⟨2, ![R, 4096]⟩ .f32) (Xb : FVec Ideal ⟨2, ![R', 4096]⟩ .f32)
    (W : FVec Ideal ⟨2, ![4096, 4096]⟩ .f32) (bias : FVec Ideal ⟨1, ![4096]⟩ .f32)
    (y : (⟨2, ![R', 4096]⟩ : Shape).Idx) (i : (⟨2, ![R, 4096]⟩ : Shape).Idx) (h1 : (i 1).val = (y 1).val)
    (hX : ∀ k : Fin 4096, Xb (ix2 ⟨(y 0).val, (y 0).isLt⟩ k) = X (ix2 ⟨(i 0).val, (i 0).isLt⟩ k)) :
    linearRows Xb W bias y = linearRows X W bias i := by
  unfold linearRows
  have e1 : (⟨(y 1).val, (y 1).isLt⟩ : Fin 4096) = ⟨(i 1).val, (i 1).isLt⟩ := Fin.ext h1.symm
  rw [e1]
  exact congrArg (· + bias (ix1 ⟨(i 1).val, (i 1).isLt⟩)) (Finset.sum_congr rfl fun k _ => by rw [hX k])

end Rows

/-! ## The layer -/

abbrev SBytes : Shape := ⟨3, ![4096, 64, 32]⟩
abbrev SGroup : Shape := ⟨3, ![4096, 64, 1]⟩
abbrev SCodes : Shape := ⟨3, ![4096, 64, 64]⟩
abbrev SAct : Shape := ⟨3, ![4, 2048, 4096]⟩
abbrev SBias : Shape := ⟨1, ![4096]⟩
abbrev SRows : Shape := ⟨2, ![8192, 4096]⟩
abbrev SMat : Shape := ⟨2, ![4096, 4096]⟩

/-- Where entry `k` of row `n` of the weight matrix sits among the groups. -/
abbrev entryOf (n : Nat) (hn : n < 4096) (k : Fin 4096) : SCodes.Idx :=
  ix3 ⟨n, hn⟩ ⟨k.val / 64, by have := k.isLt; omega⟩ ⟨k.val % 64, by omega⟩

/-- The layer: `Σ_k x[b, s, k] · w[n, k] + bias[n]`. -/
def layer (x : FVec Ideal SAct .f32) (w : FVec Ideal SCodes .f32) (bias : FVec Ideal SBias .f32) : FVec Ideal SAct .f32 := fun i =>
  (∑ k : Fin 4096, x (ix3 ⟨(i 0).val, (i 0).isLt⟩ ⟨(i 1).val, (i 1).isLt⟩ k) * w (entryOf (i 2).val (i 2).isLt k))
    + bias (ix1 ⟨(i 2).val, (i 2).isLt⟩)

/-- What both programs return. -/
def result (x : FVec Ideal SAct .f32) (P : IVec SBytes 32) (mn scale : FVec Ideal SGroup .f32) (bias : FVec Ideal SBias .f32) :
    FVec Ideal SAct .f32 :=
  layer x (dequant P mn scale) bias

/-- The layer through its flat views: with the activations' two leading axes merged into 8192 rows, the grouped
    weights' two trailing axes merged into a `[4096, 4096]` matrix and the rows of the result split back, the
    row-wise map is the layer. Row `b · 2048 + s` is position `(b, s)`; column `k` of the matrix is entry `k % 64` of group
    `k / 64`. -/
theorem layer_eq_linearRows (x : FVec Ideal SAct .f32) (w : FVec Ideal SCodes .f32) (bias : FVec Ideal SBias .f32)
    (hx : SAct.ShapeCasts SRows) (hw : SCodes.ShapeCasts SMat) (ho : SRows.ShapeCasts SAct) :
    shapeCast SAct (linearRows (shapeCast SRows x hx) (shapeCast SMat w hw) bias) ho = layer x w bias := by
  funext i
  have h0 : (i 0).val < 4 := (i 0).isLt
  have h1 : (i 1).val < 2048 := (i 1).isLt
  have h2 : (i 2).val < 4096 := (i 2).isLt
  rw [shapeCast_apply _ ho i (ix2 ⟨(i 0).val * 2048 + (i 1).val, by omega⟩ ⟨(i 2).val, h2⟩)
    (by rw [Shape.rowMajor_val_two, Shape.rowMajor_val_three]; rfl)]
  unfold linearRows layer
  refine congrArg (· + bias (ix1 ⟨(i 2).val, (i 2).isLt⟩)) (Finset.sum_congr rfl fun k _ => ?_)
  have hk : k.val < 4096 := k.isLt
  rw [shapeCast_apply x hx _ (ix3 ⟨(i 0).val, (i 0).isLt⟩ ⟨(i 1).val, (i 1).isLt⟩ k)
      (by rw [Shape.rowMajor_val_two, Shape.rowMajor_val_three]; rfl),
    shapeCast_apply w hw _ (entryOf (i 2).val (i 2).isLt k)
      (by rw [Shape.rowMajor_val_two, Shape.rowMajor_val_three]
          show ((i 2).val * 64 + k.val / 64) * 64 + k.val % 64 = (i 2).val * 4096 + k.val
          omega)]

end Cert.Dequant4

end
-- ==== Proof.DequantRegion.lean ====
/-
  The first kernel, over its whole grid: the array it leaves is the dequantised weights of `Spec.lean`.

  Grid point `t` works on rows `64 t … 64 t + 63`: it is handed those rows of the bytes and of the two parameter arrays,
  and writes those rows of the result. Its body masks each word to its low byte before taking the nibbles, which
  changes neither nibble; the rest is the definition. Dequantisation is local to a row, so the rows the point writes
  are the same rows of the whole array's dequantisation, and the 64 points cover all 4096 rows.
-/
import proofs.«426776_j81990925680772_2_alg».proof.Proof.Gen.KernelIdeal.Frame
import proofs.«426776_j81990925680772_2_alg».proof.Proof.Spec
import Idealize.ShloMosaic.Lib.Pipeline.Value

set_option maxRecDepth 16384

noncomputable section

namespace Cert.KernelIdeal.DequantRegion

open Cert.KernelIdeal Cert.KernelIdeal.Gen Cert.Dequant4
open Idealize.ShloMosaic Idealize.ShloMosaic.TcCoe Idealize.ShloMosaic.ValueIdx Idealize.SL.Sem
open Idealize.ShloMosaic.Pipeline (Dat)

/-- What the body stores, from the three blocks it loads: the dequantisation of the 64 rows it was handed. -/
theorem payload_eq (p : Vec Ideal S64x64x32 .i32) (sc mn : Vec Ideal S64x64x1 .f32) :
    k0_pay1 (F := Ideal) p sc mn = dequant p mn sc := by
  funext y
  unfold k0_pay1 dequant code
  show Ideal.div (FloatOps.sitofp (F := Ideal) .f32 (concatenate S64x64x64 2 [⟨S64x64x32, _⟩, ⟨S64x64x32, _⟩] _ y))
      (broadcastTo S64x64x64 sc _ y) + broadcastTo S64x64x64 mn _ y = _
  have hg : ∀ v : Vec Ideal S64x64x1 .f32, broadcastTo S64x64x64 v broadcasts_S64x64x1_S64x64x64 y = v (groupOf y) := fun v =>
    broadcastTo_apply v _ y (groupOf y) fun a => match a with
      | ⟨0, _⟩ => by show (y 0).val = if (64 : Nat) = 1 then 0 else (y 0).val; rw [if_neg (by decide)]
      | ⟨1, _⟩ => by show (y 1).val = if (64 : Nat) = 1 then 0 else (y 1).val; rw [if_neg (by decide)]
      | ⟨2, _⟩ => by show 0 = if (1 : Nat) = 1 then 0 else (y 2).val; rw [if_pos rfl]
  rw [hg sc, hg mn, concat_halves_apply]
  by_cases h : (y 2).val < 32
  · rw [dif_pos h, dif_pos h]
    show Ideal.div (FloatOps.sitofp (F := Ideal) .f32 (IntOp.andi (IntOp.shrsi .vector (IntOp.andi (p (inFirst y h)) 255#32) 4#32) 15#32)) _ + _ = _
    rw [hi_nibble_of_low_byte]
  · rw [dif_neg h, dif_neg h]
    show Ideal.div (FloatOps.sitofp (F := Ideal) .f32 (IntOp.andi (IntOp.andi (p (inSecond y h)) 255#32) 15#32)) _ + _ = _
    rw [lo_nibble_of_low_byte]

variable (V : (c : Dev nD) → (b : Ref sig .tc) → Buf (Elt Ideal) ((c : Thread nD τ).loc b))

/-- The arrays the region finds, at their literal types. -/
abbrev bytes (c : Dev nD) : IVec SBytes 32 := V c main_arg1
abbrev mins (c : Dev nD) : FVec Ideal SGroup .f32 := V c main_arg2
abbrev scales (c : Dev nD) : FVec Ideal SGroup .f32 := V c main_arg3

theorem hz3 : (![0, 0, 0] : Fin 3 → Nat) = fun _ => 0 := funext fun a => by fin_cases a <;> rfl

/-- The printed index maps over the grid: every window's block index at point `t` is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- WHAT POINT `t` WRITES BACK is its block of the whole array's dequantisation. -/
theorem flushed_eq (c : Dev nD) (t : Fin cfg0.N) :
    (dat0 V c).flushed 3 t = ((cfg0.win 3).blk t).view.read (Elt Ideal) (dequant (bytes V c) (mins V c) (scales V c)) := by
  show (cfg0.win 3).cut (grid0.coords t) ((dat0 V c).after 3 t) = _
  rw [after0_3]
  unfold out0_3
  rw [View.canon_unit_zero hz3]
  simp only [View.ld_unit_zero (S := S64x64x32) hz3, View.ld_unit_zero (S := S64x64x1) hz3]
  obtain ⟨a0, a1, a2, b0, b1, b2, c0, c1, c2, d0, d1, d2⟩ := idx_facts t
  funext y
  show k0_pay1 (F := Ideal) (iblk0 V c 0 t) (iblk0 V c 2 t) (iblk0 V c 1 t) y
      = dequant (bytes V c) (mins V c) (scales V c) (((cfg0.win 3).blk t).view.emb y)
  refine (congrFun (payload_eq (iblk0 V c 0 t) (iblk0 V c 2 t) (iblk0 V c 1 t)) y).trans ?_
  have e0 : ((((cfg0.win 3).blk t).view.emb y) 0).val = win0_3.index t (0 : Fin 3) * 64 + 1 * (y 0).val := rfl
  have e1 : ((((cfg0.win 3).blk t).view.emb y) 1).val = win0_3.index t (1 : Fin 3) * 64 + 1 * (y 1).val := rfl
  have e2 : ((((cfg0.win 3).blk t).view.emb y) 2).val = win0_3.index t (2 : Fin 3) * 64 + 1 * (y 2).val := rfl
  refine dequant_rows (bytes V c) (mins V c) (scales V c) (iblk0 V c 0 t) (iblk0 V c 1 t) (iblk0 V c 2 t) y _
    (by rw [e1]; omega) (by rw [e2]; omega) (fun z z' hz0 hz0' hz1 hz2 => ?_) ?_ ?_
  · show V c main_arg1 (((cfg0.win 0).blk t).view.emb z) = V c main_arg1 z'
    refine congrArg (V c main_arg1) (funext fun a => Fin.ext ?_)
    match a with
    | ⟨0, _⟩ => show win0_0.index t (0 : Fin 3) * 64 + 1 * (z 0).val = (z' 0).val; rw [hz0', e0]; omega
    | ⟨1, _⟩ => show win0_0.index t (1 : Fin 3) * 64 + 1 * (z 1).val = (z' 1).val; omega
    | ⟨2, _⟩ => show win0_0.index t (2 : Fin 3) * 32 + 1 * (z 2).val = (z' 2).val; omega
  · show V c main_arg2 (((cfg0.win 1).blk t).view.emb (groupOf y)) = V c main_arg2 (groupOf _)
    refine congrArg (V c main_arg2) (funext fun a => Fin.ext ?_)
    match a with
    | ⟨0, _⟩ => show win0_1.index t (0 : Fin 3) * 64 + 1 * (y 0).val = _; rw [show ((groupOf (((cfg0.win 3).blk t).view.emb y)) 0).val = ((((cfg0.win 3).blk t).view.emb y) 0).val from rfl, e0]; omega
    | ⟨1, _⟩ => show win0_1.index t (1 : Fin 3) * 64 + 1 * (y 1).val = _; rw [show ((groupOf (((cfg0.win 3).blk t).view.emb y)) 1).val = ((((cfg0.win 3).blk t).view.emb y) 1).val from rfl, e1]; omega
    | ⟨2, _⟩ => show win0_1.index t (2 : Fin 3) * 1 + 1 * 0 = 0; omega
  · show V c main_arg3 (((cfg0.win 2).blk t).view.emb (groupOf y)) = V c main_arg3 (groupOf _)
    refine congrArg (V c main_arg3) (funext fun a => Fin.ext ?_)
    match a with
    | ⟨0, _⟩ => show win0_2.index t (0 : Fin 3) * 64 + 1 * (y 0).val = _; rw [show ((groupOf (((cfg0.win 3).blk t).view.emb y)) 0).val = ((((cfg0.win 3).blk t).view.emb y) 0).val from rfl, e0]; omega
    | ⟨1, _⟩ => show win0_2.index t (1 : Fin 3) * 64 + 1 * (y 1).val = _; rw [show ((groupOf (((cfg0.win 3).blk t).view.emb y)) 1).val = ((((cfg0.win 3).blk t).view.emb y) 1).val from rfl, e1]; omega
    | ⟨2, _⟩ => show win0_2.index t (2 : Fin 3) * 1 + 1 * 0 = 0; omega

/-- An index of the array is in point `t`'s block iff each coordinate is in the block's range on its axis. -/
theorem mem_blk (t : Fin cfg0.N) (i : S4096x64x64.Idx) :
    i ∈ ((cfg0.win 3).blk t).view.set ↔ ∀ a : Fin 3, win0_3.index t a * S64x64x64.size a ≤ (i a).val ∧ (i a).val < win0_3.index t a * S64x64x64.size a + S64x64x64.size a := by
  show i ∈ ((View.whole main_v0).slice (win0_3.rect t)).set ↔ _
  rw [View.set_slice_whole, Rect.mem_set_unit]
  exact Iff.rfl

/-- Every row is some point's: row `r` is in the block of point `r / 64`. -/
theorem cover (i : S4096x64x64.Idx) : ∃ t : Fin cfg0.N, (cfg0.win 3).flush t = true ∧ i ∈ ((cfg0.win 3).blk t).view.set := by
  have h0 : (i 0).val < 4096 := (i 0).isLt
  have h1 : (i 1).val < 64 := (i 1).isLt
  have h2 : (i 2).val < 64 := (i 2).isLt
  let t : Fin cfg0.N := ⟨(i 0).val / 64, by rw [show cfg0.N = 64 from N_0]; omega⟩
  obtain ⟨-, -, -, -, -, -, -, -, -, d0, d1, d2⟩ := idx_facts t
  have ht : t.val = (i 0).val / 64 := rfl
  refine ⟨t, flush0_3 t, ?_⟩
  rw [mem_blk]
  intro a
  match a with
  | ⟨0, _⟩ => show win0_3.index t (0 : Fin 3) * 64 ≤ (i 0).val ∧ (i 0).val < win0_3.index t (0 : Fin 3) * 64 + 64; omega
  | ⟨1, _⟩ => show win0_3.index t (1 : Fin 3) * 64 ≤ (i 1).val ∧ (i 1).val < win0_3.index t (1 : Fin 3) * 64 + 64; omega
  | ⟨2, _⟩ => show win0_3.index t (2 : Fin 3) * 64 ≤ (i 2).val ∧ (i 2).val < win0_3.index t (2 : Fin 3) * 64 + 64; omega

/-- THE ARRAY the first kernel leaves: the dequantised weights, of the arrays as the region finds them. -/
theorem final (c : Dev nD) : (dat0 V c).arrAt 3 cfg0.N = dequant (bytes V c) (mins V c) (scales V c) :=
  (dat0 V c).arrAt_eq_of_cover 3 (dequant (bytes V c) (mins V c) (scales V c)) (fun t _ => flushed_eq V c t) cover

end Cert.KernelIdeal.DequantRegion

end
-- ==== Proof.LinearRegion.lean ====
/-
  The second kernel, over its whole grid: the array it leaves is the row-wise map of `Spec.lean`,
  `out[r, n] = Σ_k X[r, k] · W[n, k] + bias[n]`, of the arrays it finds.

  Grid point `t` is handed rows `128 t … 128 t + 127` of `X`, the whole of `W` and of `bias`, and writes those rows of the
  result. Its body contracts the second axis of both operands into a zero accumulator — the plain sum over `k` on the
  extended reals, where the change of format before it is the identity — and adds the bias along the rows. A row of
  the result needs that row of `X` only, so the rows a point writes are the same rows of the whole array's map, and the
  64 points cover all 8192 rows.
-/
import proofs.«426776_j81990925680772_2_alg».proof.Proof.Gen.KernelIdeal.Frame
import proofs.«426776_j81990925680772_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.LinearRegion

open Cert.KernelIdeal Cert.KernelIdeal.Gen Cert.Dequant4
open Idealize.ShloMosaic Idealize.ShloMosaic.TcCoe Idealize.ShloMosaic.ValueIdx Idealize.SL.Sem
open Idealize.ShloMosaic.Pipeline (Dat)

/-! ## The contraction's operand indices, axis by axis -/

theorem lhs_0 (i : S128x4096.Idx) (q : dot_S128x4096_S4096x4096_S128x4096_1_1_0_0_n_n.contr.Idx) :
    (dot_S128x4096_S4096x4096_S128x4096_1_1_0_0_n_n.lhsIdx i q 0).val = (i 0).val := by
  unfold DotDims.lhsIdx
  rw [dif_neg (show ¬(0 : Fin S128x4096.rank) ∈ dot_S128x4096_S4096x4096_S128x4096_1_1_0_0_n_n.lhsBatch by decide), dif_pos (show (0 : Fin S128x4096.rank) ∈ dot_S128x4096_S4096x4096_S128x4096_1_1_0_0_n_n.lhsNonContracting by decide)]
  rfl
theorem lhs_1 (i : S128x4096.Idx) (q : dot_S128x4096_S4096x4096_S128x4096_1_1_0_0_n_n.contr.Idx) :
    (dot_S128x4096_S4096x4096_S128x4096_1_1_0_0_n_n.lhsIdx i q 1).val = (q ⟨0, by decide⟩).val :=
  dot_S128x4096_S4096x4096_S128x4096_1_1_0_0_n_n.lhsIdx_val_of_single rfl i q
theorem rhs_0 (i : S128x4096.Idx) (q : dot_S128x4096_S4096x4096_S128x4096_1_1_0_0_n_n.contr.Idx) :
    (dot_S128x4096_S4096x4096_S128x4096_1_1_0_0_n_n.rhsIdx i q 0).val = (i 1).val := by
  unfold DotDims.rhsIdx
  rw [dif_neg (show ¬(0 : Fin S4096x4096.rank) ∈ dot_S128x4096_S4096x4096_S128x4096_1_1_0_0_n_n.rhsBatch by decide), dif_pos (show (0 : Fin S4096x4096.rank) ∈ dot_S128x4096_S4096x4096_S128x4096_1_1_0_0_n_n.rhsNonContracting by decide)]
  rfl
theorem rhs_1 (i : S128x4096.Idx) (q : dot_S128x4096_S4096x4096_S128x4096_1_1_0_0_n_n.contr.Idx) :
    (dot_S128x4096_S4096x4096_S128x4096_1_1_0_0_n_n.rhsIdx i q 1).val = (q ⟨0, by decide⟩).val :=
  dot_S128x4096_S4096x4096_S128x4096_1_1_0_0_n_n.rhsIdx_val_of_single rfl i q

/-- What the body stores, from the three blocks it loads: the row-wise map of the 128 rows it was handed. -/
theorem payload_eq (x : Vec Ideal S128x4096 .f32) (w : Vec Ideal S4096x4096 .bf16) (b : Vec Ideal S4096 .f32) :
    k1_pay1 (F := Ideal) x w b = linearRows (R := 128) x w b := by
  funext y
  unfold k1_pay1 linearRows
  show (matmul (F := Ideal) dot_S128x4096_S4096x4096_S128x4096_1_1_0_0_n_n none (truncf .bf16 (shapeCast S128x4096 x shapeCasts_S128x4096_S128x4096) bitsLt_bf16_f32)
        (shapeCast S4096x4096 w shapeCasts_S4096x4096_S4096x4096) (constant (F := Ideal) S128x4096 .f32 0x00000000#32)) y
      + broadcastTo S128x4096 (shapeCast S1x4096 b shapeCasts_S4096_S1x4096) broadcasts_S1x4096_S128x4096 y = _
  rw [shapeCast_self, shapeCast_self]
  have hb : broadcastTo S128x4096 (shapeCast S1x4096 b shapeCasts_S4096_S1x4096) broadcasts_S1x4096_S128x4096 y
      = b (ix1 ⟨(y 1).val, (y 1).isLt⟩) := by
    rw [broadcastTo_apply _ broadcasts_S1x4096_S128x4096 y (ix2 ⟨0, Nat.one_pos⟩ ⟨(y 1).val, (y 1).isLt⟩) (fun a => match a with
      | ⟨0, _⟩ => by show 0 = if (1 : Nat) = 1 then 0 else _; rw [if_pos rfl]
      | ⟨1, _⟩ => by show (y 1).val = if (4096 : Nat) = 1 then 0 else (y 1).val; rw [if_neg (by decide)])]
    exact shapeCast_apply b shapeCasts_S4096_S1x4096 _ (ix1 ⟨(y 1).val, (y 1).isLt⟩)
      (by rw [Shape.rowMajor_val_one, Shape.rowMajor_val_two]; show (y 1).val = 0 * 4096 + (y 1).val; omega)
  rw [hb]
  refine congrArg (· + b (ix1 ⟨(y 1).val, (y 1).isLt⟩)) ?_
  simp only [matmul]
  rw [Ideal.matmul_constant_zero_apply, ← Equiv.sum_comp (ValueIdx.contrEquiv1 dot_S128x4096_S4096x4096_S128x4096_1_1_0_0_n_n 4096 rfl rfl).symm]
  refine Finset.sum_congr rfl fun k _ => ?_
  have hk := ValueIdx.contrEquiv1_symm_val dot_S128x4096_S4096x4096_S128x4096_1_1_0_0_n_n 4096 rfl rfl k
  have el : dot_S128x4096_S4096x4096_S128x4096_1_1_0_0_n_n.lhsIdx y ((ValueIdx.contrEquiv1 dot_S128x4096_S4096x4096_S128x4096_1_1_0_0_n_n 4096 rfl rfl).symm k) = ix2 ⟨(y 0).val, (y 0).isLt⟩ k := funext fun a => Fin.ext (by
    match a with
    | ⟨0, _⟩ => exact lhs_0 _ _
    | ⟨1, _⟩ => exact (lhs_1 _ _).trans hk)
  have er : dot_S128x4096_S4096x4096_S128x4096_1_1_0_0_n_n.rhsIdx y ((ValueIdx.contrEquiv1 dot_S128x4096_S4096x4096_S128x4096_1_1_0_0_n_n 4096 rfl rfl).symm k) = ix2 ⟨(y 1).val, (y 1).isLt⟩ k := funext fun a => Fin.ext (by
    match a with
    | ⟨0, _⟩ => exact rhs_0 _ _
    | ⟨1, _⟩ => exact (rhs_1 _ _).trans hk)
  rw [el, er]
  rfl

variable (V : (c : Dev nD) → (b : Ref sig .tc) → Buf (Elt Ideal) ((c : Thread nD τ).loc b))

/-- The arrays the region finds, at their literal types. -/
abbrev acts (c : Dev nD) : FVec Ideal SRows .f32 := V c main_v2
abbrev mat (c : Dev nD) : FVec Ideal SMat .f32 := V c main_v1
abbrev bvec (c : Dev nD) : FVec Ideal SBias .f32 := V c main_arg4

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the activations' and the result's block index at point `t` is `(t, 0)`, the
    matrix's and the bias's is zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The matrix's one block is the matrix. -/
theorem mat_block (c : Dev nD) (t : Fin cfg1.N) : (iblk1 V c 1 t : Vec Ideal S4096x4096 .bf16) = mat V c := by
  obtain ⟨-, -, b0, b1, -, -, -⟩ := idx_facts t
  funext z
  show V c main_v1 (((cfg1.win 1).blk t).view.emb z) = V c main_v1 z
  refine congrArg (V c main_v1) (funext fun a => Fin.ext ?_)
  match a with
  | ⟨0, _⟩ => show win1_1.index t (0 : Fin 2) * 4096 + 1 * (z 0).val = (z 0).val; omega
  | ⟨1, _⟩ => show win1_1.index t (1 : Fin 2) * 4096 + 1 * (z 1).val = (z 1).val; omega

/-- The bias's one block is the bias. -/
theorem bias_block (c : Dev nD) (t : Fin cfg1.N) : (iblk1 V c 2 t : Vec Ideal S4096 .f32) = bvec V c := by
  obtain ⟨-, -, -, -, c0, -, -⟩ := idx_facts t
  funext z
  show V c main_arg4 (((cfg1.win 2).blk t).view.emb z) = V c main_arg4 z
  refine congrArg (V c main_arg4) (funext fun a => Fin.ext ?_)
  match a with
  | ⟨0, _⟩ => show win1_2.index t (0 : Fin 1) * 4096 + 1 * (z 0).val = (z 0).val; omega

/-- WHAT POINT `t` WRITES BACK is its block of the whole array's row-wise map. -/
theorem flushed_eq (c : Dev nD) (t : Fin cfg1.N) :
    (dat1 V c).flushed 3 t = ((cfg1.win 3).blk t).view.read (Elt Ideal) (linearRows (acts V c) (mat V c) (bvec V c)) := by
  show (cfg1.win 3).cut (grid1.coords t) ((dat1 V c).after 3 t) = _
  rw [after1_3]
  unfold out1_3
  rw [View.canon_unit_zero hz2]
  simp only [View.ld_unit_zero (S := S128x4096) hz2, View.ld_unit_zero (S := S4096x4096) hz2, View.ld_unit_zero (S := S4096) hz1]
  obtain ⟨a0, a1, -, -, -, d0, d1⟩ := idx_facts t
  funext y
  show k1_pay1 (F := Ideal) (iblk1 V c 0 t) (iblk1 V c 1 t) (iblk1 V c 2 t) y
      = linearRows (acts V c) (mat V c) (bvec V c) (((cfg1.win 3).blk t).view.emb y)
  refine (congrFun (payload_eq (iblk1 V c 0 t) (iblk1 V c 1 t) (iblk1 V c 2 t)) y).trans ?_
  rw [mat_block V c t, bias_block V c t]
  have e0 : ((((cfg1.win 3).blk t).view.emb y) 0).val = win1_3.index t (0 : Fin 2) * 128 + 1 * (y 0).val := rfl
  have e1 : ((((cfg1.win 3).blk t).view.emb y) 1).val = win1_3.index t (1 : Fin 2) * 4096 + 1 * (y 1).val := rfl
  refine linearRows_rows (acts V c) (iblk1 V c 0 t) (mat V c) (bvec V c) y _ (by rw [e1]; omega) fun k => ?_
  show V c main_v2 (((cfg1.win 0).blk t).view.emb (ix2 ⟨(y 0).val, (y 0).isLt⟩ k)) = V c main_v2 _
  refine congrArg (V c main_v2) (funext fun a => Fin.ext ?_)
  match a with
  | ⟨0, _⟩ => show win1_0.index t (0 : Fin 2) * 128 + 1 * (y 0).val = ((((cfg1.win 3).blk t).view.emb y) 0).val; rw [e0]; omega
  | ⟨1, _⟩ => show win1_0.index t (1 : Fin 2) * 4096 + 1 * k.val = k.val; omega

/-- An index of the array is in point `t`'s block iff each coordinate is in the block's range on its axis. -/
theorem mem_blk (t : Fin cfg1.N) (i : S8192x4096.Idx) :
    i ∈ ((cfg1.win 3).blk t).view.set ↔ ∀ a : Fin 2, win1_3.index t a * S128x4096.size a ≤ (i a).val ∧ (i a).val < win1_3.index t a * S128x4096.size a + S128x4096.size a := by
  show i ∈ ((View.whole main_v3).slice (win1_3.rect t)).set ↔ _
  rw [View.set_slice_whole, Rect.mem_set_unit]
  exact Iff.rfl

/-- Every row is some point's: row `r` is in the block of point `r / 128`. -/
theorem cover (i : S8192x4096.Idx) : ∃ t : Fin cfg1.N, (cfg1.win 3).flush t = true ∧ i ∈ ((cfg1.win 3).blk t).view.set := by
  have h0 : (i 0).val < 8192 := (i 0).isLt
  have h1 : (i 1).val < 4096 := (i 1).isLt
  let t : Fin cfg1.N := ⟨(i 0).val / 128, by rw [show cfg1.N = 64 from N_1]; omega⟩
  obtain ⟨-, -, -, -, -, d0, d1⟩ := idx_facts t
  have ht : t.val = (i 0).val / 128 := rfl
  refine ⟨t, flush1_3 t, ?_⟩
  rw [mem_blk]
  intro a
  match a with
  | ⟨0, _⟩ => show win1_3.index t (0 : Fin 2) * 128 ≤ (i 0).val ∧ (i 0).val < win1_3.index t (0 : Fin 2) * 128 + 128; omega
  | ⟨1, _⟩ => show win1_3.index t (1 : Fin 2) * 4096 ≤ (i 1).val ∧ (i 1).val < win1_3.index t (1 : Fin 2) * 4096 + 4096; omega

/-- THE ARRAY the second kernel leaves: the row-wise map, of the arrays as the region finds them. -/
theorem final (c : Dev nD) : (dat1 V c).arrAt 3 cfg1.N = linearRows (acts V c) (mat V c) (bvec V c) :=
  (dat1 V c).arrAt_eq_of_cover 3 (linearRows (acts V c) (mat V c) (bvec V c)) (fun t _ => flushed_eq V c t) cover

end Cert.KernelIdeal.LinearRegion

end
-- ==== Proof.KernelValue.lean ====
/-
  The kernel program's result, from the launch memory.

  @main is: the first kernel (dequantise) — two host reshapes (the grouped weights `[4096, 64, 64]` to a matrix
  `[4096, 4096]`; the activations `[4, 2048, 4096]` to 8192 rows) — the second kernel (the row-wise map) — a host reshape of
  its 8192 rows back to `[4, 2048, 4096]`. The contents of every buffer at each boundary are a fold from the launch
  memory; reading the result buffer back through that fold gives the row-wise map of the reshaped activations and the
  reshaped dequantised weights, reshaped back: by `Spec.lean`, the layer.
-/
import proofs.«426776_j81990925680772_2_alg».proof.Proof.KernelRun
import proofs.«426776_j81990925680772_2_alg».proof.Proof.DequantRegion
import proofs.«426776_j81990925680772_2_alg».proof.Proof.LinearRegion
import Idealize.ShloMosaic.Lib.StableHlo.Run

set_option maxRecDepth 16384

noncomputable section

namespace Cert.KernelIdeal.Result

open Cert.KernelIdeal Cert.KernelIdeal.Gen Cert.Dequant4
open Idealize.ShloMosaic Idealize.ShloMosaic.TcCoe Idealize.SL.Sem Idealize.ShloMosaic.StableHlo

variable (m : (ℓ : Loc nD τ sig) → Buf (Elt Ideal) ℓ) (ρ : Dev nD → PrngReg)

/-- The launch memory's argument arrays, at their literal types. -/
abbrev actsIn (c : Dev nD) : FVec Ideal SAct .f32 := m ((c.tc : Thread nD τ).loc main_arg0)
abbrev bytesIn (c : Dev nD) : IVec SBytes 32 := m ((c.tc : Thread nD τ).loc main_arg1)
abbrev minsIn (c : Dev nD) : FVec Ideal SGroup .f32 := m ((c.tc : Thread nD τ).loc main_arg2)
abbrev scalesIn (c : Dev nD) : FVec Ideal SGroup .f32 := m ((c.tc : Thread nD τ).loc main_arg3)
abbrev biasIn (c : Dev nD) : FVec Ideal SBias .f32 := m ((c.tc : Thread nD τ).loc main_arg4)

/-- After the first kernel its result buffer holds the dequantised weights of the launch memory's arrays. -/
theorem weights_buf (c : Dev nD) :
    W1 m ρ c (Proc.devRef .tc main_v0) = dequant (bytesIn m c) (minsIn m c) (scalesIn m c) :=
  (W1_arr m ρ c 3).trans (DequantRegion.final (V0 m ρ) c)

/-- The first kernel leaves the activations and the bias as launched: it does not touch them. -/
theorem acts_kept (c : Dev nD) : W1 m ρ c (Proc.devRef .tc main_arg0) = actsIn m c :=
  (W1_of_ne m ρ c main_arg0 (by decide)).trans rfl
theorem bias_kept (c : Dev nD) : W1 m ρ c (Proc.devRef .tc main_arg4) = biasIn m c :=
  (W1_of_ne m ρ c main_arg4 (by decide)).trans rfl

/-- The second kernel's operands, as it finds them: the reshaped activations, -/
theorem rows_buf (c : Dev nD) :
    W2 m ρ c (Proc.devRef .tc main_v2) = shapeCast S8192x4096 (actsIn m c) shapeCasts_S4x2048x4096_S8192x4096 := by
  have h : W2 m ρ c (Proc.devRef .tc main_v2)
      = shapeCast S8192x4096 (W1 m ρ c (Proc.devRef .tc main_arg0)) shapeCasts_S4x2048x4096_S8192x4096 := by
    show StableHlo.after hostOps1 (W1 m ρ c) (Proc.devRef .tc main_v2) = _
    after_results
    rfl
  rw [h, acts_kept]

/-- the reshaped dequantised weights, -/
theorem mat_buf (c : Dev nD) :
    W2 m ρ c (Proc.devRef .tc main_v1)
      = shapeCast S4096x4096 (dequant (bytesIn m c) (minsIn m c) (scalesIn m c)) shapeCasts_S4096x64x64_S4096x4096 := by
  have h : W2 m ρ c (Proc.devRef .tc main_v1)
      = shapeCast S4096x4096 (W1 m ρ c (Proc.devRef .tc main_v0)) shapeCasts_S4096x64x64_S4096x4096 := by
    show StableHlo.after hostOps1 (W1 m ρ c) (Proc.devRef .tc main_v1) = _
    after_results
    rfl
  rw [h, weights_buf]

/-- and the bias. -/
theorem bias_buf (c : Dev nD) : W2 m ρ c (Proc.devRef .tc main_arg4) = biasIn m c := by
  have h : W2 m ρ c (Proc.devRef .tc main_arg4) = W1 m ρ c (Proc.devRef .tc main_arg4) := by
    show StableHlo.after hostOps1 (W1 m ρ c) (Proc.devRef .tc main_arg4) = _
    after_results
  rw [h, bias_kept]

/-- After the second kernel its result buffer holds the row-wise map of those three. -/
theorem out_rows_buf (c : Dev nD) :
    W3 m ρ c (Proc.devRef .tc main_v3)
      = linearRows (shapeCast S8192x4096 (actsIn m c) shapeCasts_S4x2048x4096_S8192x4096)
          (shapeCast S4096x4096 (dequant (bytesIn m c) (minsIn m c) (scalesIn m c)) shapeCasts_S4096x64x64_S4096x4096)
          (biasIn m c) := by
  have h : W3 m ρ c (Proc.devRef .tc main_v3)
      = linearRows (W2 m ρ c (Proc.devRef .tc main_v2)) (W2 m ρ c (Proc.devRef .tc main_v1)) (W2 m ρ c (Proc.devRef .tc main_arg4)) :=
    (W3_arr m ρ c 3).trans (LinearRegion.final (V2 m ρ) c)
  rw [h, rows_buf, mat_buf, bias_buf]

/-- THE RESULT BUFFER at the return: the layer of the launch memory's arrays. -/
theorem result_buf (c : Dev nD) :
    W4 m ρ c (Proc.devRef .tc main_v4) = result (actsIn m c) (bytesIn m c) (minsIn m c) (scalesIn m c) (biasIn m c) := by
  have h : W4 m ρ c (Proc.devRef .tc main_v4)
      = shapeCast S4x2048x4096 (W3 m ρ c (Proc.devRef .tc main_v3)) shapeCasts_S8192x4096_S4x2048x4096 := by
    show StableHlo.after hostOps2 (W3 m ρ c) (Proc.devRef .tc main_v4) = _
    after_results
    rfl
  rw [h, out_rows_buf]
  exact layer_eq_linearRows _ _ _ _ _ _

/-- The kernel program's run with its result read: every weakly fair execution terminates, nothing faulting, with the
    result array at the layer of the argument arrays and the arguments unchanged. -/
theorem run : θ_run defs (onTc (τ := τ) (main (F := Ideal))) ⟨m, fun _ => 0, ρ⟩ (fun r => ∀ c : Dev nD,
      r.2.mem ((c.tc : Thread nD τ).loc main_v4) = result (actsIn m c) (bytesIn m c) (minsIn m c) (scalesIn m c) (biasIn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_buf m ρ c), (h c).2⟩) (Cert.KernelIdeal.Launched.run m ρ)

end Cert.KernelIdeal.Result

end
-- ==== Proof.RefValue.lean ====
/-
  The reference program's result is the layer of `Spec.lean`, index by index: its two nibble extractions joined
  along the last axis are the codes; code / scale + mn, with the per-group parameters broadcast along a group, are
  the grouped weights; the reshape to `[4096, 4096]` sends entry `(n, k)` to entry `k % 64` of group `k / 64` of row
  `n`; the contraction over `k` and the bias broadcast along the two leading axes are the layer.
-/
import proofs.«426776_j81990925680772_2_alg».proof.Proof.Gen.ReferenceIdeal.Read
import proofs.«426776_j81990925680772_2_alg».proof.Proof.Spec

noncomputable section

namespace Cert.ReferenceIdeal.RefValue

open Cert.ReferenceIdeal Cert.ReferenceIdeal.Read Cert.Dequant4
open Idealize.ShloMosaic Idealize.ShloMosaic.ValueIdx

/-- The joined nibbles are the codes. -/
theorem codes_eq (P : (⟨S4096x64x32, .i32⟩ : BufTy).Contents (Elt Ideal)) (j : S4096x64x64.Idx) :
    val_main_v6 (F := Ideal) P j = code P j := by
  unfold val_main_v6 code
  rw [concat_halves_apply]
  by_cases h : (j 2).val < 32
  · rw [dif_pos h, dif_pos h, val_main_v3_apply, val_main_v1_apply, val_main_v0_apply, val_main_c_apply,
      val_main_v2_apply, val_main_c_0_apply]
  · rw [dif_neg h, dif_neg h, val_main_v5_apply, val_main_v4_apply, val_main_c_1_apply]

/-- A group's parameter, broadcast along the group, is read at the entry's group. -/
theorem group_idx (j : S4096x64x64.Idx) : idx_main_v8 j = groupOf j :=
  funext fun a => match a with
    | ⟨0, _⟩ => rfl
    | ⟨1, _⟩ => rfl
    | ⟨2, _⟩ => rfl

/-- The dequantised values are the grouped weights. -/
theorem weights_eq (P : (⟨S4096x64x32, .i32⟩ : BufTy).Contents (Elt Ideal))
    (mn scale : (⟨S4096x64x1, .f32⟩ : BufTy).Contents (Elt Ideal)) (j : S4096x64x64.Idx) :
    val_main_v11 (F := Ideal) P mn scale j = dequant P mn scale j := by
  rw [val_main_v11_apply, val_main_v9_apply, val_main_v7_apply, val_main_v8_apply, val_main_v10_apply, codes_eq]
  show Ideal.div _ (scale (idx_main_v8 j)) + mn (idx_main_v8 j) = _
  rw [group_idx]
  rfl

/-- Entry `(n, k)` of the reshaped weights is entry `k % 64` of group `k / 64` of row `n`. -/
theorem reshape_idx (i : S4x2048x4096.Idx) (k : Fin 4096) :
    idx_main_v12 (ridx_main_v13 i k) = entryOf (i 2).val (i 2).isLt k := by
  have hi : (i 2).val < 4096 := (i 2).isLt
  have hk : k.val < 4096 := k.isLt
  funext a
  apply Fin.ext
  match a with
  | ⟨0, _⟩ => show ((i 2).val * 4096 + k.val) / 4096 = (i 2).val; omega
  | ⟨1, _⟩ => show ((i 2).val * 4096 + k.val) / 64 % 64 = k.val / 64; omega
  | ⟨2, _⟩ => show ((i 2).val * 4096 + k.val) % 64 = k.val % 64; omega

/-- The reference's result is the layer. -/
theorem result_eq (x : (⟨S4x2048x4096, .f32⟩ : BufTy).Contents (Elt Ideal)) (P : (⟨S4096x64x32, .i32⟩ : BufTy).Contents (Elt Ideal))
    (mn scale : (⟨S4096x64x1, .f32⟩ : BufTy).Contents (Elt Ideal)) (bias : (⟨S4096, .f32⟩ : BufTy).Contents (Elt Ideal)) :
    val_main_v16 (F := Ideal) x P mn scale bias = result x P mn scale bias := by
  funext i
  rw [val_main_v16_apply, val_main_v13_apply, val_main_v15_apply, val_main_v14_apply]
  unfold result layer
  show (∑ k : Fin 4096, x (lidx_main_v13 i k) * val_main_v12 (F := Ideal) P mn scale (ridx_main_v13 i k))
      + bias (idx_main_v14 (idx_main_v15 i)) = _
  have hb : idx_main_v14 (idx_main_v15 i) = ix1 ⟨(i 2).val, (i 2).isLt⟩ :=
    funext fun a => match a with | ⟨0, _⟩ => rfl
  rw [hb]
  refine congrArg (· + bias (ix1 ⟨(i 2).val, (i 2).isLt⟩)) (Finset.sum_congr rfl fun k _ => ?_)
  rw [val_main_v12_apply, weights_eq, reshape_idx]
  have hx : lidx_main_v13 i k = ix3 ⟨(i 0).val, (i 0).isLt⟩ ⟨(i 1).val, (i 1).isLt⟩ k :=
    funext fun a => match a with
      | ⟨0, _⟩ => rfl
      | ⟨1, _⟩ => rfl
      | ⟨2, _⟩ => rfl
  rw [hx]
  rfl

end Cert.ReferenceIdeal.RefValue

end
-- ==== Proof.lean ====
/-
  A linear layer with 4-bit group-quantised weights: `out[b, s, n] = Σ_k x[b, s, k] · w[n, k] + bias[n]`, where row `n` of
  `w` is stored in 64 groups of 64 entries, two entries to a byte (high nibble: entries 0–31 of the group, low nibble:
  entries 32–63), and entry code `q` of group `g` stands for `q / scale[n, g] + mn[n, g]`.

  The kernel program does it in two Pallas kernels: the first dequantises 64 rows of `w` per grid point (masking each
  word to its low byte before it takes the nibbles, which changes neither), the second multiplies 128 rows of `x` per
  grid point by the whole of `w` (contracting over `k` into a zero accumulator) and adds the bias; reshapes between them
  merge and split axes. The reference does the same arithmetic on whole arrays. Over the extended reals both are the one
  function `Cert.Dequant4.result` of the five argument arrays (Proof/Spec.lean):

  * the kernel program's run ends with its result at that function — Proof/DequantRegion.lean and
    Proof/LinearRegion.lean read each kernel's output array over its grid, Proof/KernelValue.lean folds them through
    the reshapes of @main (over the launch of Proof/KernelRun.lean);
  * the reference's run ends with its result at that function — Proof/RefValue.lean, one operation at a time.

  No law of arithmetic is needed beyond reading both sums over the same index set, so the finiteness of the inputs is
  not used. The three frame claims are the programs' generated frames; the idealisation rewrote nothing.
-/
import proofs.«426776_j81990925680772_2_alg».proof.Defs
import proofs.«426776_j81990925680772_2_alg».proof.Proof.Gen.Kernel
import proofs.«426776_j81990925680772_2_alg».proof.Proof.Gen.Kernel.Skeleton
import proofs.«426776_j81990925680772_2_alg».proof.Proof.Gen.Kernel.Launch
import proofs.«426776_j81990925680772_2_alg».proof.Proof.Gen.Kernel.Points
import proofs.«426776_j81990925680772_2_alg».proof.Proof.Gen.Kernel.Frame
import proofs.«426776_j81990925680772_2_alg».proof.Proof.Gen.KernelIdeal
import proofs.«426776_j81990925680772_2_alg».proof.Proof.Gen.KernelIdeal.Skeleton
import proofs.«426776_j81990925680772_2_alg».proof.Proof.Gen.KernelIdeal.Launch
import proofs.«426776_j81990925680772_2_alg».proof.Proof.Gen.KernelIdeal.Points
import proofs.«426776_j81990925680772_2_alg».proof.Proof.Gen.KernelIdeal.Frame
import proofs.«426776_j81990925680772_2_alg».proof.Proof.Gen.ReferenceIdeal
import proofs.«426776_j81990925680772_2_alg».proof.Proof.Gen.ReferenceIdeal.Run
import proofs.«426776_j81990925680772_2_alg».proof.Proof.Gen.ReferenceIdeal.Read
import proofs.«426776_j81990925680772_2_alg».proof.Proof.Gen.Pre_finite_inputs
import proofs.«426776_j81990925680772_2_alg».proof.Proof.KernelValue
import proofs.«426776_j81990925680772_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the layer of their argument arrays, which agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
